-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S10000x64 : Shape := ⟨2, ![10000, 64]⟩
abbrev S1x64 : Shape := ⟨2, ![1, 64]⟩

abbrev nBuf : Space → Nat
  | .hbm => 85
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x64, .f32⟩
  | .local _ .vmem, ⟨19, _⟩ => ⟨S2000x64, .f32⟩
  | .local _ .vmem, ⟨20, _⟩ => ⟨S2000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S2000x64, .f32⟩
  | .local _ .vmem, ⟨28, _⟩ => ⟨S2000x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1700000_S1700000x1 : S1700000.ShapeCasts S1700000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1700000x64.size a
  hwx4_0 : ∀ i : grid4.Coords, EltTy.bits .f32 = 32 ∨ (Rect.block (s := S1700000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1700000x64.size a
  hwx4_2 : ∀ i : grid4.Coords, EltTy.bits .f32 = 32 ∨ (Rect.block (s := S1700000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Carry.lean ====
/-
  Which buffers keep their contents from one boundary of the idealized kernel program to a later one: a host
  stretch leaves every buffer it does not write as it was, and a region leaves every buffer that is not one of its
  three arrays as it was. These are the facts that carry the two node-index lists, the edge weights and the
  argument arrays from where they are made (or launched) to where a later stretch or region reads them.
-/
import proofs.«127978_j65386582114681_1_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a host stretch writes keeps its contents across the stretch. -/
macro "unwritten" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-- The source-node list, made by the first host stretch, is untouched up to the first gather of projected rows. -/
theorem W4_v5_of_W1 (c : Dev nD) : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by unwritten hostOps0_2
    _ = W1 m ρ c (Proc.devRef .tc main_v5) := by unwritten hostOps0_1

/-- …and from there up to the second gather of projected rows. -/
theorem W9_v5_of_W4 (c : Dev nD) : W9 m ρ c (Proc.devRef .tc main_v5) = W4 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by unwritten hostOps2
    _ = W5 m ρ c (Proc.devRef .tc main_v5) := W6_of_ne m ρ c main_v5 (by decide)
    _ = W4 m ρ c (Proc.devRef .tc main_v5) := by unwritten hostOps1

/-- The target-node list is untouched up to the first scatter-add. -/
theorem W6_v6_of_W1 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by unwritten hostOps1
    _ = W3 m ρ c (Proc.devRef .tc main_v6) := W4_of_ne m ρ c main_v6 (by decide)
    _ = W2 m ρ c (Proc.devRef .tc main_v6) := by unwritten hostOps0_2
    _ = W1 m ρ c (Proc.devRef .tc main_v6) := by unwritten hostOps0_1

/-- …and from there up to the second scatter-add. -/
theorem W11_v6_of_W6 (c : Dev nD) : W11 m ρ c (Proc.devRef .tc main_v6) = W6 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by unwritten hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by unwritten hostOps2

/-- The edge weights are untouched across the first projection. -/
theorem W4_v31_of_W3 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- …and from there up to the second scaling. -/
theorem W9_v31_of_W4 (c : Dev nD) : W9 m ρ c (Proc.devRef .tc main_v31) = W4 m ρ c (Proc.devRef .tc main_v31) :=
  calc W9 m ρ c (Proc.devRef .tc main_v31)
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := by unwritten hostOps2
    _ = W5 m ρ c (Proc.devRef .tc main_v31) := W6_of_ne m ρ c main_v31 (by decide)
    _ = W4 m ρ c (Proc.devRef .tc main_v31) := by unwritten hostOps1

/-- The node features reach the first projection as launched. -/
theorem W3_arg0_of_W0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0

/-- The first weight matrix reaches the first projection as launched. -/
theorem W3_arg2_of_W0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0

/-- The first bias reaches its reshape as launched. -/
theorem W6_arg3_of_W0 (c : Dev nD) : W6 m ρ c (Proc.devRef .tc main_arg3) = W0 m ρ c (Proc.devRef .tc main_arg3) :=
  calc W6 m ρ c (Proc.devRef .tc main_arg3)
    _ = W5 m ρ c (Proc.devRef .tc main_arg3) := W6_of_ne m ρ c main_arg3 (by decide)
    _ = W4 m ρ c (Proc.devRef .tc main_arg3) := by unwritten hostOps1
    _ = W3 m ρ c (Proc.devRef .tc main_arg3) := W4_of_ne m ρ c main_arg3 (by decide)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0

/-- The second weight matrix reaches the second projection as launched. -/
theorem W8_arg4_of_W0 (c : Dev nD) : W8 m ρ c (Proc.devRef .tc main_arg4) = W0 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := by unwritten hostOps2
    _ = W5 m ρ c (Proc.devRef .tc main_arg4) := W6_of_ne m ρ c main_arg4 (by decide)
    _ = W4 m ρ c (Proc.devRef .tc main_arg4) := by unwritten hostOps1
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0

/-- The second bias reaches its reshape as launched. -/
theorem W11_arg5_of_W0 (c : Dev nD) : W11 m ρ c (Proc.devRef .tc main_arg5) = W0 m ρ c (Proc.devRef .tc main_arg5) :=
  calc W11 m ρ c (Proc.devRef .tc main_arg5)
    _ = W10 m ρ c (Proc.devRef .tc main_arg5) := W11_of_ne m ρ c main_arg5 (by decide)
    _ = W9 m ρ c (Proc.devRef .tc main_arg5) := by unwritten hostOps4
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := by unwritten hostOps2
    _ = W5 m ρ c (Proc.devRef .tc main_arg5) := W6_of_ne m ρ c main_arg5 (by decide)
    _ = W4 m ρ c (Proc.devRef .tc main_arg5) := by unwritten hostOps1
    _ = W3 m ρ c (Proc.devRef .tc main_arg5) := W4_of_ne m ρ c main_arg5 (by decide)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0

end Cert.KernelIdeal.Boundary

end
-- ==== Proof.Project1.lean ====
/-
  The first projection region: the node features [100000, 128] times the first weight matrix [128, 128], computed
  2000 rows at a time. Each written-back block is the product restricted to its rows (the contraction runs over all
  128 columns inside one block, so the tiling does not touch the sum), the 50 blocks tile the output array, and so
  the array after the region is the whole product, entry by entry a sum over the contracted axis.
-/
import proofs.«127978_j65386582114681_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Project1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Row `i 0`, column `k` of the left factor. -/
abbrev lrow (i : S100000x128.Idx) (k : Fin 128) : S100000x128.Idx := fun a => match a with
  | ⟨0, _⟩ => ⟨(i 0).val, (i 0).isLt⟩
  | ⟨1, _⟩ => ⟨k.val, k.isLt⟩
/-- Row `k`, column `i 1` of the right factor. -/
abbrev rcol (i : S100000x128.Idx) (k : Fin 128) : S128x128.Idx := fun a => match a with
  | ⟨0, _⟩ => ⟨k.val, k.isLt⟩
  | ⟨1, _⟩ => ⟨(i 1).val, (i 1).isLt⟩

/-- The matrix product `x · w` over the extended reals, entry by entry. -/
def prod (x : Vec Ideal S100000x128 .f32) (w : Vec Ideal S128x128 .f32) : Vec Ideal S100000x128 .f32 :=
  fun i => ∑ k : Fin 128, x (lrow i k) * w (rcol i k)

/-! ## One block's product

A block is 2000 consecutive rows of the left factor, all 128 columns; the right factor is one block, whole. -/

/-- Both the load and the store of a block start at its corner. -/
theorem corner : (![0, 0] : Fin 2 → Nat) = fun _ => 0 := funext fun a => by fin_cases a <;> rfl

/-- Row `j 0`, column `k` of a block of the left factor. -/
abbrev blockRow (j : S2000x128.Idx) (k : Fin 128) : S2000x128.Idx := fun a => match a with
  | ⟨0, _⟩ => ⟨(j 0).val, (j 0).isLt⟩
  | ⟨1, _⟩ => ⟨k.val, k.isLt⟩
/-- Row `k`, column `j 1` of the right factor, for an entry `j` of a block. -/
abbrev blockCol (j : S2000x128.Idx) (k : Fin 128) : S128x128.Idx := fun a => match a with
  | ⟨0, _⟩ => ⟨k.val, k.isLt⟩
  | ⟨1, _⟩ => ⟨(j 1).val, (j 1).isLt⟩

/-- The left operand of the block's contraction is read at the entry's row, -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and at the contracted position as its column. -/
theorem lhs_contracted (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right operand is read at the contracted position as its row, -/
theorem rhs_contracted (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- and at the entry's column. -/
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- What the body computes from a block `x0` of the left factor and the right factor `x1`, at entry `j` of the
    block: the sum over `k` of `x0 (j 0, k) · x1 (k, j 1)`. Narrowing to bf16 changes no extended real, and the
    accumulator starts at zero. -/
theorem block_product (x0 : Vec Ideal S2000x128 .f32) (x1 : Vec Ideal S128x128 .f32) (j : S2000x128.Idx) :
    k0_pay1 x0 x1 j = ∑ k : Fin 128, x0 (blockRow j k) * x1 (blockCol j k) := by
  unfold k0_pay1
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = blockRow j k := funext fun a => Fin.ext (by
    match a with
    | ⟨0, _⟩ => exact lhs_row _ _
    | ⟨1, _⟩ => exact (lhs_contracted _ _).trans hk)
  have er : dot_S2000x128_S128x128_S2000x128_1_0_0_1_n_n.rhsIdx j ((ValueIdx.contrEquiv1 dot_S2000x128_S128x128_S2000x128_1_0_0_1_n_n 128 rfl rfl).symm k) = blockCol j k := funext fun a => Fin.ext (by
    match a with
    | ⟨0, _⟩ => exact (rhs_contracted _ _).trans hk
    | ⟨1, _⟩ => exact rhs_col _ _)
  rw [el, er]
  rfl

/-! ## From the blocks to the array

Point `t` of the 50 points reads rows `2000 t … 2000 t + 1999` of the left factor, the whole right factor, and
writes the same rows of the result. -/

/-- Where each window's block sits at point `t`: the left factor's and the result's at block row `t`, block column 0;
    the right factor's always at (0, 0). -/
theorem block_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the left factor's block at point `t` is the array's entry `i` when `i` is `y` moved down by `2000 t` rows. -/
theorem left_block_apply (c : Dev nD) (t : Fin cfg0.N) (y : S2000x128.Idx) (i : S100000x128.Idx)
    (h0 : (i 0).val = t.val * 2000 + (y 0).val) (h1 : (i 1).val = (y 1).val) :
    (iblk0 V c 0 t : Vec Ideal S2000x128 .f32) y = (V c main_arg0 : Vec Ideal S100000x128 .f32) i := by
  obtain ⟨e0, e1, -⟩ := block_at t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The right factor's block at any point is the right factor. -/
theorem right_block_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg2 : Vec Ideal S128x128 .f32) i := by
  obtain ⟨-, -, e0, e1, -⟩ := block_at t
  unfold iblk0
  rw [View.read_apply]
  show V c main_arg2 (((cfg0.win 1).blk t).view.emb y) = V c main_arg2 i
  congr 1
  funext a
  apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point `t` writes back is rows `2000 t … 2000 t + 1999` of the product of the two arrays. -/
theorem written_back (c : Dev nD) (t : Fin cfg0.N) :
    (dat0 (F := Ideal) V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero corner]
  simp only [View.ld_unit_zero (S := S2000x128) corner, View.ld_unit_zero (S := S128x128) corner]
  obtain ⟨-, -, -, -, e0, e1⟩ := block_at t
  funext j
  show k0_pay1 (iblk0 V c 0 t) (iblk0 V c 1 t) j = prod (V c main_arg0) (V c main_arg2) (((cfg0.win 2).blk t).view.emb j)
  refine (block_product (iblk0 V c 0 t) (iblk0 V c 1 t) j).trans ?_
  unfold prod
  refine Finset.sum_congr rfl fun k _ => ?_
  have hj0 : ((((cfg0.win 2).blk t).view.emb j) 0).val = t.val * 2000 + (j 0).val := by
    show win0_2.index t (0 : Fin 2) * 2000 + 1 * (j 0).val = _; omega
  have hj1 : ((((cfg0.win 2).blk t).view.emb j) 1).val = (j 1).val := by
    show win0_2.index t (1 : Fin 2) * 128 + 1 * (j 1).val = _; omega
  rw [left_block_apply V c t (blockRow j k) (lrow (((cfg0.win 2).blk t).view.emb j) k) hj0 rfl,
    right_block_apply V c t (blockCol j k) (rcol (((cfg0.win 2).blk t).view.emb j) k) rfl hj1]

/-- An entry of the array is in point `t`'s block iff each of its coordinates is in the block's range. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row `r` is written by point `r / 2000`: the 50 blocks of 2000 rows are the 100000 rows. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, e0, e1⟩ := block_at ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e1]; omega

/-- After the first projection's region the output array holds `x · w` of the two arrays it read. -/
theorem arr (c : Dev nD) (x : Vec Ideal S100000x128 .f32) (w : Vec Ideal S128x128 .f32)
    (hx : V c main_arg0 = x) (hw : V c main_arg2 = w) :
    (dat0 (F := Ideal) V c).arrAt 2 cfg0.N = prod x w := by
  subst hx; subst hw
  exact (dat0 (F := Ideal) V c).arrAt_eq_of_cover 2 (prod (V c main_arg0) (V c main_arg2))
    (fun t _ => written_back V c t) rows_covered

end Cert.KernelIdeal.Project1

end
-- ==== Proof.Scale1.lean ====
/-
  The first scaling region: the gathered rows [1700000, 128], each multiplied by its edge's weight, read from a
  one-column array [1700000, 1], 10000 rows at a time. A block of the output is the pointwise product of the block
  of rows with the block of weights spread along the columns; the 170 blocks tile the array.
-/
import proofs.«127978_j65386582114681_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Row `i 0` of the one-column array of factors. -/
abbrev rowOf (i : S1700000x128.Idx) : S1700000x1.Idx := fun a => match a with
  | ⟨0, _⟩ => ⟨(i 0).val, (i 0).isLt⟩
  | ⟨1, _⟩ => ⟨0, Nat.one_pos⟩

/-- Every row of `h` multiplied by that row's factor. -/
def scaled (h : Vec Ideal S1700000x128 .f32) (n : Vec Ideal S1700000x1 .f32) : Vec Ideal S1700000x128 .f32 :=
  fun i => h i * n (rowOf i)

/-! ## One block: 10000 rows of the array, each times its own factor -/

/-- Both offsets of an access to a whole block are zero. -/
theorem offsets_zero : (![0, 0] : Fin 2 → Nat) = fun _ => 0 := funext fun a => by fin_cases a <;> rfl

/-- Row `j 0` of a block's one-column piece of the factors. -/
abbrev blockRowOf (j : S10000x128.Idx) : S10000x1.Idx := fun a => match a with
  | ⟨0, _⟩ => ⟨(j 0).val, (j 0).isLt⟩
  | ⟨1, _⟩ => ⟨0, Nat.one_pos⟩

/-- A block's one column of factors repeated along the 128 columns: entry `(r, q)` is the factor of row `r`. -/
theorem factors_along_columns (x1 : Vec Ideal S10000x1 .f32) (j : S10000x128.Idx) :
    broadcastTo S10000x128 x1 broadcasts_S10000x1_S10000x128 j = x1 (blockRowOf j) := by
  refine broadcastTo_apply x1 _ j (blockRowOf j) fun a => ?_
  match a with
  | ⟨0, _⟩ => rfl
  | ⟨1, _⟩ => rfl

/-- What the body computes at entry `(r, q)` of a block: the block's entry times row `r`'s factor. -/
theorem body_entry (x0 : Vec Ideal S10000x128 .f32) (x1 : Vec Ideal S10000x1 .f32) (j : S10000x128.Idx) :
    k1_pay1 x0 x1 j = x0 j * x1 (blockRowOf j) := by
  unfold k1_pay1
  simp only [shapeCast_self]
  show x0 j * broadcastTo S10000x128 x1 broadcasts_S10000x1_S10000x128 j = _
  rw [factors_along_columns]

/-- So where a block's entry `j` is the array's entry `i` and row `j 0` of the block's factors is row `i 0` of the array's,
    the body's result at `j` is the scaled array at `i`. -/
theorem body_entry_of_array (x0 : Vec Ideal S10000x128 .f32) (x1 : Vec Ideal S10000x1 .f32)
    (h : Vec Ideal S1700000x128 .f32) (n : Vec Ideal S1700000x1 .f32) (j : S10000x128.Idx) (i : S1700000x128.Idx)
    (hrow : x0 j = h i) (hfac : x1 (blockRowOf j) = n (rowOf i)) : k1_pay1 x0 x1 j = scaled h n i := by
  rw [body_entry, hrow, hfac]
  rfl

/-! ## The blocks in the array -/

/-- The three windows' block indices at grid point `t`: block `t` of the rows, the only block of the columns. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Grid point `t` writes back rows `10000 t … 10000 t + 9999` of the scaled array. -/
theorem written_block (c : Dev nD) (t : Fin cfg1.N) :
    (dat1 (F := Ideal) V c).flushed 2 t
      = ((cfg1.win 2).blk t).view.read (Elt Ideal) (scaled (V c main_v39) (V c main_v40)) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S10000x1) offsets_zero]
  obtain ⟨a00, a01, a10, a11, a20, a21⟩ := block_indices t
  funext j
  show k1_pay1 (iblk1 V c 0 t) (iblk1 V c 1 t) j
    = scaled (V c main_v39) (V c main_v40) (((cfg1.win 2).blk t).view.emb j)
  refine body_entry_of_array _ _ _ _ j _ ?_ ?_
  · show V c main_v39 (((cfg1.win 0).blk t).view.emb j) = V c main_v39 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_v40 (((cfg1.win 1).blk t).view.emb (blockRowOf j)) = V c main_v40 (rowOf (((cfg1.win 2).blk t).view.emb j))
    refine congrArg _ (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An entry of the array is in grid point `t`'s block iff each coordinate is in the block's range on its axis. -/
theorem mem_block (t : Fin cfg1.N) (i : S1700000x128.Idx) :
    i ∈ ((cfg1.win 2).blk t).view.set
      ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- The 170 blocks of 10000 rows fill the 1700000 rows: row `r` is in block `r / 10000`. -/
theorem blocks_cover (i : S1700000x128.Idx) :
    ∃ t : Fin cfg1.N, (cfg1.win 2).flush t = true ∧ i ∈ ((cfg1.win 2).blk t).view.set := by
  have hi0 : (i 0).val < 1700000 := (i 0).isLt
  have hi1 : (i 1).val < 128 := (i 1).isLt
  have ht : (i 0).val / 10000 < 170 := by omega
  obtain ⟨a00, a01, a10, a11, a20, a21⟩ := block_indices ⟨(i 0).val / 10000, ht⟩
  have a20' : win1_2.index ⟨(i 0).val / 10000, ht⟩ (0 : Fin 2) = (i 0).val / 10000 := a20
  refine ⟨⟨(i 0).val / 10000, ht⟩, flush1_2 _, ?_⟩
  rw [mem_block]
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 128 ≤ (i 1).val ∧ (i 1).val < win1_2.index ⟨(i 0).val / 10000, ht⟩ (1 : Fin 2) * 128 + 128; omega

/-! ## The array after the region -/

/-- After the first scaling region the output array holds the rows of the first array it read, each times its factor in the second. -/
theorem arr (c : Dev nD) (h : Vec Ideal S1700000x128 .f32) (n : Vec Ideal S1700000x1 .f32)
    (hh : V c main_v39 = h) (hn : V c main_v40 = n) :
    (dat1 (F := Ideal) V c).arrAt 2 cfg1.N = scaled h n := by
  subst hh; subst hn
  exact (dat1 V c).arrAt_eq_of_cover 2 (scaled (V c main_v39) (V c main_v40)) (fun t _ => written_block V c t) blocks_cover

end Cert.KernelIdeal.Scale1

end
-- ==== Proof.BiasRelu.lean ====
/-
  The first epilogue region: to every entry of the summed messages [100000, 128] the bias of its column is added
  (the bias is a one-row array [1, 128], the same block at every point, spread along the rows), and the maximum
  with zero is taken; 2000 rows at a time, the 50 blocks tile the array.
-/
import proofs.«127978_j65386582114681_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Column `i 1` of the one-row array of biases. -/
abbrev colOf (i : S100000x128.Idx) : S1x128.Idx := fun a => match a with
  | ⟨0, _⟩ => ⟨0, Nat.one_pos⟩
  | ⟨1, _⟩ => ⟨(i 1).val, (i 1).isLt⟩

/-- The bias of its column added to every entry, then the maximum with zero. -/
def biased (a : Vec Ideal S100000x128 .f32) (b : Vec Ideal S1x128 .f32) : Vec Ideal S100000x128 .f32 :=
  fun i => FloatOps.maximumf (FloatOps.addf (a i) (b (colOf i))) (Ideal.ofBits .f32 0x00000000#32)

/-- The offsets of an access to a whole buffer are zero on both axes. -/
theorem offsets_zero : (![0, 0] : Fin 2 → Nat) = fun _ => 0 := funext fun a => by fin_cases a <;> rfl

/-- Column `j 1` of the one-row block of biases. -/
abbrev blockColOf (j : S2000x128.Idx) : S1x128.Idx := fun a => match a with
  | ⟨0, _⟩ => ⟨0, Nat.one_pos⟩
  | ⟨1, _⟩ => ⟨(j 1).val, (j 1).isLt⟩

/-- The one-row block repeated along the 2000 rows reads, at (r, c), its entry (0, c). -/
theorem rows_of_one_row (x : Vec Ideal S1x128 .f32) (j : S2000x128.Idx) :
    broadcastTo S2000x128 x broadcasts_S1x128_S2000x128 j = x (blockColOf j) :=
  broadcastTo_apply x broadcasts_S1x128_S2000x128 j (blockColOf j) (fun a => by
    match a with
    | ⟨0, _⟩ => rfl
    | ⟨1, _⟩ => rfl)

/-- The body's result at entry (r, c) of a block: the entry plus the bias of column c, then the maximum with zero. -/
theorem body_entry (x0 : Vec Ideal S2000x128 .f32) (x1 : Vec Ideal S1x128 .f32) (j : S2000x128.Idx) :
    k2_pay1 x0 x1 j = FloatOps.maximumf (FloatOps.addf (x0 j) (x1 (blockColOf j))) (Ideal.ofBits .f32 0x00000000#32) := by
  unfold k2_pay1
  simp only [shapeCast_self]
  show FloatOps.maximumf (F := Ideal) (FloatOps.addf (F := Ideal) (x0 j) (broadcastTo S2000x128 x1 broadcasts_S1x128_S2000x128 j)) _ = _
  rw [rows_of_one_row]
  rfl

/-- The block indices of the three windows at point `t`: the first input and the output are at block row `t`,
    block column 0; the row of biases is its one block at every point. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of a block's result is the whole-array function at the array entry under it, once the two
    block entries it reads are the arrays' entries there. -/
theorem entry_of_block (a : Vec Ideal S100000x128 .f32) (b : Vec Ideal S1x128 .f32)
    (x0 : Vec Ideal S2000x128 .f32) (x1 : Vec Ideal S1x128 .f32) (j : S2000x128.Idx) (i : S100000x128.Idx)
    (h0 : x0 j = a i) (h1 : x1 (blockColOf j) = b (colOf i)) :
    k2_pay1 x0 x1 j = biased a b i := by
  rw [body_entry, h0, h1]
  rfl

/-- What point `t` writes back is block `t` of `biased` of the two arrays the region reads: entry (r, c) of the
    block is entry (2000 t + r, c) of the array, and depends on that entry of the first array and on entry (0, c)
    of the row of biases. -/
theorem written_back_block (c : Dev nD) (t : Fin cfg2.N) :
    (dat2 (F := Ideal) V c).flushed 2 t
      = ((cfg2.win 2).blk t).view.read (Elt Ideal) (biased (V c main_v44) (V c main_v45)) := by
  show (cfg2.win 2).cut (grid2.coords t) ((dat2 V c).after 2 t) = _
  rw [after2_2]
  unfold out2_2
  rw [View.canon_unit_zero offsets_zero]
  simp only [View.ld_unit_zero (S := S2000x128) offsets_zero, View.ld_unit_zero (S := S1x128) offsets_zero]
  obtain ⟨e0, e1, e2, e3, e4, e5⟩ := block_indices t
  funext j
  show k2_pay1 (iblk2 V c 0 t) (iblk2 V c 1 t) j
      = biased (V c main_v44) (V c main_v45) (((cfg2.win 2).blk t).view.emb j)
  refine entry_of_block (V c main_v44) (V c main_v45) (iblk2 V c 0 t) (iblk2 V c 1 t) j _ ?_ ?_
  · -- the first input's block sits over the same rows and columns as the output's
    show V c main_v44 (((cfg2.win 0).blk t).view.emb j) = V c main_v44 (((cfg2.win 2).blk t).view.emb j)
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * (j 1).val = win2_2.index t (1 : Fin 2) * 128 + 1 * (j 1).val; omega
  · -- the one block of biases is the whole row: its column c is the array's column c
    show V c main_v45 (((cfg2.win 1).blk t).view.emb (blockColOf j)) = V c main_v45 (colOf (((cfg2.win 2).blk t).view.emb j))
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega

/-- An entry of the output array is in point `t`'s block iff each coordinate is in the block's range on its axis. -/
theorem mem_block_iff (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- The 50 blocks of 2000 rows tile the 100000 rows: row r is in the block of point r / 2000, and every point
    writes its block back. -/
theorem rows_tiled (i : S100000x128.Idx) :
    ∃ t : Fin cfg2.N, (cfg2.win 2).flush t = true ∧ i ∈ ((cfg2.win 2).blk t).view.set := by
  have hr : (i 0).val < 100000 := (i 0).isLt
  have hc : (i 1).val < 128 := (i 1).isLt
  have hN : cfg2.N = 50 := N_2
  have ht : (i 0).val / 2000 < cfg2.N := by omega
  obtain ⟨-, -, -, -, e4, e5⟩ := block_indices ⟨(i 0).val / 2000, ht⟩
  refine ⟨⟨(i 0).val / 2000, ht⟩, flush2_2 _, ?_⟩
  rw [mem_block_iff]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    rw [e5]
    omega

/-- After the first epilogue's region the output array holds max(a + b, 0) of the two arrays it read. -/
theorem arr (c : Dev nD) (a : Vec Ideal S100000x128 .f32) (b : Vec Ideal S1x128 .f32)
    (ha : V c main_v44 = a) (hb : V c main_v45 = b) :
    (dat2 (F := Ideal) V c).arrAt 2 cfg2.N = biased a b := by
  subst ha; subst hb
  exact (dat2 (F := Ideal) V c).arrAt_eq_of_cover 2 (biased (V c main_v44) (V c main_v45))
    (fun t _ => written_back_block V c t) rows_tiled

end Cert.KernelIdeal.BiasRelu

end
-- ==== Proof.Project2.lean ====
/-
  The second projection region: the first layer's output [100000, 128] times the second weight matrix [128, 64],
  computed 2000 rows at a time. As for the first projection, each written-back block is the product restricted to
  its rows, the 50 blocks tile the output array, and the array after the region is the whole product.
-/
import proofs.«127978_j65386582114681_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Project2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Row `i 0`, column `k` of the left factor. -/
abbrev lrow (i : S100000x64.Idx) (k : Fin 128) : S100000x128.Idx := fun a => match a with
  | ⟨0, _⟩ => ⟨(i 0).val, (i 0).isLt⟩
  | ⟨1, _⟩ => ⟨k.val, k.isLt⟩
/-- Row `k`, column `i 1` of the right factor. -/
abbrev rcol (i : S100000x64.Idx) (k : Fin 128) : S128x64.Idx := fun a => match a with
  | ⟨0, _⟩ => ⟨k.val, k.isLt⟩
  | ⟨1, _⟩ => ⟨(i 1).val, (i 1).isLt⟩

/-- The matrix product `x · w` over the extended reals, entry by entry. -/
def prod (x : Vec Ideal S100000x128 .f32) (w : Vec Ideal S128x64 .f32) : Vec Ideal S100000x64 .f32 :=
  fun i => ∑ k : Fin 128, x (lrow i k) * w (rcol i k)

/-! ## One block's product

A block is 2000 consecutive rows of the left factor, all 128 columns; the right factor, 128 rows of 64 columns, is
one block, whole; a block of the result is 2000 rows of 64 columns. -/

/-- Both loads and the store of a block start at its corner. -/
theorem corner : (![0, 0] : Fin 2 → Nat) = fun _ => 0 := funext fun a => by fin_cases a <;> rfl

/-- Row `j 0`, column `k` of a block of the left factor. -/
abbrev blockRow (j : S2000x64.Idx) (k : Fin 128) : S2000x128.Idx := fun a => match a with
  | ⟨0, _⟩ => ⟨(j 0).val, (j 0).isLt⟩
  | ⟨1, _⟩ => ⟨k.val, k.isLt⟩
/-- Row `k`, column `j 1` of the right factor, for an entry `j` of a block of the result. -/
abbrev blockCol (j : S2000x64.Idx) (k : Fin 128) : S128x64.Idx := fun a => match a with
  | ⟨0, _⟩ => ⟨k.val, k.isLt⟩
  | ⟨1, _⟩ => ⟨(j 1).val, (j 1).isLt⟩

/-- The left operand of the block's contraction is read at the entry's row, -/
theorem lhs_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- and at the contracted position as its column. -/
theorem lhs_contracted (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
/-- The right operand is read at the contracted position as its row, -/
theorem rhs_contracted (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
/-- and at the entry's column. -/
theorem rhs_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- What the body computes from a block `x0` of the left factor and the right factor `x1`, at entry `j` of the
    result's block: the sum over `k` of `x0 (j 0, k) · x1 (k, j 1)`. Recasting a block to its own shape and
    narrowing to bf16 change no extended real, and the accumulator starts at zero. -/
theorem block_product (x0 : Vec Ideal S2000x128 .f32) (x1 : Vec Ideal S128x64 .f32) (j : S2000x64.Idx) :
    k3_pay1 x0 x1 j = ∑ k : Fin 128, x0 (blockRow j k) * x1 (blockCol j k) := by
  unfold k3_pay1
  simp only [matmul, shapeCast_self]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = blockRow j k := funext fun a => Fin.ext (by
    match a with
    | ⟨0, _⟩ => exact lhs_row _ _
    | ⟨1, _⟩ => exact (lhs_contracted _ _).trans hk)
  have er : dot_S2000x128_S128x64_S2000x64_1_0_0_1_n_n.rhsIdx j ((ValueIdx.contrEquiv1 dot_S2000x128_S128x64_S2000x64_1_0_0_1_n_n 128 rfl rfl).symm k) = blockCol j k := funext fun a => Fin.ext (by
    match a with
    | ⟨0, _⟩ => exact (rhs_contracted _ _).trans hk
    | ⟨1, _⟩ => exact rhs_col _ _)
  rw [el, er]
  rfl

/-! ## From the blocks to the array

Point `t` of the 50 points reads rows `2000 t … 2000 t + 1999` of the left factor, the whole right factor, and
writes the same rows of the result. -/

/-- Where each window's block sits at point `t`: the left factor's and the result's at block row `t`, block column 0;
    the right factor's always at (0, 0). -/
theorem block_at : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry `y` of the left factor's block at point `t` is the array's entry `i` when `i` is `y` moved down by `2000 t` rows. -/
theorem left_block_apply (c : Dev nD) (t : Fin cfg3.N) (y : S2000x128.Idx) (i : S100000x128.Idx)
    (h0 : (i 0).val = t.val * 2000 + (y 0).val) (h1 : (i 1).val = (y 1).val) :
    (iblk3 V c 0 t : Vec Ideal S2000x128 .f32) y = (V c main_v46 : Vec Ideal S100000x128 .f32) i := by
  obtain ⟨e0, e1, -⟩ := block_at t
  unfold iblk3
  rw [View.read_apply]
  show V c main_v46 (((cfg3.win 0).blk t).view.emb y) = V c main_v46 i
  congr 1
  funext a
  apply Fin.ext
  match a with
  | ⟨0, _⟩ => show win3_0.index t (0 : Fin 2) * 2000 + 1 * (y 0).val = (i 0).val; omega
  | ⟨1, _⟩ => show win3_0.index t (1 : Fin 2) * 128 + 1 * (y 1).val = (i 1).val; omega

/-- The right factor's block at any point is the right factor. -/
theorem right_block_apply (c : Dev nD) (t : Fin cfg3.N) (y : S128x64.Idx) (i : S128x64.Idx)
    (h0 : (i 0).val = (y 0).val) (h1 : (i 1).val = (y 1).val) :
    (iblk3 V c 1 t : Vec Ideal S128x64 .f32) y = (V c main_arg4 : Vec Ideal S128x64 .f32) i := by
  obtain ⟨-, -, e0, e1, -⟩ := block_at t
  unfold iblk3
  rw [View.read_apply]
  show V c main_arg4 (((cfg3.win 1).blk t).view.emb y) = V c main_arg4 i
  congr 1
  funext a
  apply Fin.ext
  match a with
  | ⟨0, _⟩ => show win3_1.index t (0 : Fin 2) * 128 + 1 * (y 0).val = (i 0).val; omega
  | ⟨1, _⟩ => show win3_1.index t (1 : Fin 2) * 64 + 1 * (y 1).val = (i 1).val; omega

/-- What point `t` writes back is rows `2000 t … 2000 t + 1999` of the product of the two arrays. -/
theorem written_back (c : Dev nD) (t : Fin cfg3.N) :
    (dat3 (F := Ideal) V c).flushed 2 t = ((cfg3.win 2).blk t).view.read (Elt Ideal) (prod (V c main_v46) (V c main_arg4)) := by
  show (cfg3.win 2).cut (grid3.coords t) ((dat3 V c).after 2 t) = _
  rw [after3_2]
  unfold out3_2
  rw [View.canon_unit_zero corner]
  simp only [View.ld_unit_zero (S := S2000x128) corner, View.ld_unit_zero (S := S128x64) corner]
  obtain ⟨-, -, -, -, e0, e1⟩ := block_at t
  funext j
  show k3_pay1 (iblk3 V c 0 t) (iblk3 V c 1 t) j = prod (V c main_v46) (V c main_arg4) (((cfg3.win 2).blk t).view.emb j)
  refine (block_product (iblk3 V c 0 t) (iblk3 V c 1 t) j).trans ?_
  unfold prod
  refine Finset.sum_congr rfl fun k _ => ?_
  have hj0 : ((((cfg3.win 2).blk t).view.emb j) 0).val = t.val * 2000 + (j 0).val := by
    show win3_2.index t (0 : Fin 2) * 2000 + 1 * (j 0).val = _; omega
  have hj1 : ((((cfg3.win 2).blk t).view.emb j) 1).val = (j 1).val := by
    show win3_2.index t (1 : Fin 2) * 64 + 1 * (j 1).val = _; omega
  rw [left_block_apply V c t (blockRow j k) (lrow (((cfg3.win 2).blk t).view.emb j) k) hj0 rfl,
    right_block_apply V c t (blockCol j k) (rcol (((cfg3.win 2).blk t).view.emb j) k) rfl hj1]

/-- An entry of the array is in point `t`'s block iff each of its coordinates is in the block's range. -/
theorem mem_block (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v47).slice (win3_2.rect t)).set ↔ _
  rw [View.set_slice_whole, Rect.mem_set_unit]
  exact Iff.rfl

/-- Row `r` is written by point `r / 2000`: the 50 blocks of 2000 rows are the 100000 rows. -/
theorem rows_covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  have ht : (i 0).val / 2000 < cfg3.N := by rw [hN]; omega
  obtain ⟨-, -, -, -, e0, e1⟩ := block_at ⟨(i 0).val / 2000, ht⟩
  refine ⟨⟨(i 0).val / 2000, ht⟩, flush3_2 _, ?_⟩
  rw [mem_block]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_2.index ⟨(i 0).val / 2000, ht⟩ (1 : Fin 2) * 64 ≤ (i 1).val ∧ (i 1).val < win3_2.index ⟨(i 0).val / 2000, ht⟩ (1 : Fin 2) * 64 + 64
    rw [e1]; omega

/-- After the second projection's region the output array holds `x · w` of the two arrays it read. -/
theorem arr (c : Dev nD) (x : Vec Ideal S100000x128 .f32) (w : Vec Ideal S128x64 .f32)
    (hx : V c main_v46 = x) (hw : V c main_arg4 = w) :
    (dat3 (F := Ideal) V c).arrAt 2 cfg3.N = prod x w := by
  subst hx; subst hw
  exact (dat3 (F := Ideal) V c).arrAt_eq_of_cover 2 (prod (V c main_v46) (V c main_arg4))
    (fun t _ => written_back V c t) rows_covered

end Cert.KernelIdeal.Project2

end
-- ==== Proof.Scale2.lean ====
/-
  The second scaling region: the gathered rows [1700000, 64], each multiplied by its edge's weight, read from a
  one-column array [1700000, 1], 10000 rows at a time; the 170 blocks tile the array.
-/
import proofs.«127978_j65386582114681_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Row `i 0` of the one-column array of factors. -/
abbrev rowOf (i : S1700000x64.Idx) : S1700000x1.Idx := fun a => match a with
  | ⟨0, _⟩ => ⟨(i 0).val, (i 0).isLt⟩
  | ⟨1, _⟩ => ⟨0, Nat.one_pos⟩

/-- Every row of `h` multiplied by that row's factor. -/
def scaled (h : Vec Ideal S1700000x64 .f32) (n : Vec Ideal S1700000x1 .f32) : Vec Ideal S1700000x64 .f32 :=
  fun i => h i * n (rowOf i)

/-! ## One block: 10000 rows of the array, each times its own factor -/

/-- Both offsets of an access to a whole block are zero. -/
theorem offsets_zero : (![0, 0] : Fin 2 → Nat) = fun _ => 0 := funext fun a => by fin_cases a <;> rfl

/-- Row `j 0` of a block's one-column piece of the factors. -/
abbrev blockRowOf (j : S10000x64.Idx) : S10000x1.Idx := fun a => match a with
  | ⟨0, _⟩ => ⟨(j 0).val, (j 0).isLt⟩
  | ⟨1, _⟩ => ⟨0, Nat.one_pos⟩

/-- A block's one column of factors repeated along the 64 columns: entry `(r, q)` is the factor of row `r`. -/
theorem factors_along_columns (x1 : Vec Ideal S10000x1 .f32) (j : S10000x64.Idx) :
    broadcastTo S10000x64 x1 broadcasts_S10000x1_S10000x64 j = x1 (blockRowOf j) := by
  refine broadcastTo_apply x1 _ j (blockRowOf j) fun a => ?_
  match a with
  | ⟨0, _⟩ => rfl
  | ⟨1, _⟩ => rfl

/-- What the body computes at entry `(r, q)` of a block: the block's entry times row `r`'s factor. -/
theorem body_entry (x0 : Vec Ideal S10000x64 .f32) (x1 : Vec Ideal S10000x1 .f32) (j : S10000x64.Idx) :
    k4_pay1 x0 x1 j = x0 j * x1 (blockRowOf j) := by
  unfold k4_pay1
  simp only [shapeCast_self]
  show x0 j * broadcastTo S10000x64 x1 broadcasts_S10000x1_S10000x64 j = _
  rw [factors_along_columns]

/-- So where a block's entry `j` is the array's entry `i` and row `j 0` of the block's factors is row `i 0` of the array's,
    the body's result at `j` is the scaled array at `i`. -/
theorem body_entry_of_array (x0 : Vec Ideal S10000x64 .f32) (x1 : Vec Ideal S10000x1 .f32)
    (h : Vec Ideal S1700000x64 .f32) (n : Vec Ideal S1700000x1 .f32) (j : S10000x64.Idx) (i : S1700000x64.Idx)
    (hrow : x0 j = h i) (hfac : x1 (blockRowOf j) = n (rowOf i)) : k4_pay1 x0 x1 j = scaled h n i := by
  rw [body_entry, hrow, hfac]
  rfl

/-! ## The blocks in the array -/

/-- The three windows' block indices at grid point `t`: block `t` of the rows, the only block of the columns. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Grid point `t` writes back rows `10000 t … 10000 t + 9999` of the scaled array. -/
theorem written_block (c : Dev nD) (t : Fin cfg4.N) :
    (dat4 (F := Ideal) V c).flushed 2 t
      = ((cfg4.win 2).blk t).view.read (Elt Ideal) (scaled (V c main_v54) (V c main_v55)) := by
  show (cfg4.win 2).cut (grid4.coords t) ((dat4 V c).after 2 t) = _
  rw [after4_2]
  unfold out4_2
  rw [View.canon_unit_zero offsets_zero]
  simp only [View.ld_unit_zero (S := S10000x64) offsets_zero, View.ld_unit_zero (S := S10000x1) offsets_zero]
  obtain ⟨a00, a01, a10, a11, a20, a21⟩ := block_indices t
  funext j
  show k4_pay1 (iblk4 V c 0 t) (iblk4 V c 1 t) j
    = scaled (V c main_v54) (V c main_v55) (((cfg4.win 2).blk t).view.emb j)
  refine body_entry_of_array _ _ _ _ j _ ?_ ?_
  · show V c main_v54 (((cfg4.win 0).blk t).view.emb j) = V c main_v54 (((cfg4.win 2).blk t).view.emb j)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  · show V c main_v55 (((cfg4.win 1).blk t).view.emb (blockRowOf j)) = V c main_v55 (rowOf (((cfg4.win 2).blk t).view.emb j))
    refine congrArg _ (funext fun a => Fin.ext ?_)
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega

/-- An entry of the array is in grid point `t`'s block iff each coordinate is in the block's range on its axis. -/
theorem mem_block (t : Fin cfg4.N) (i : S1700000x64.Idx) :
    i ∈ ((cfg4.win 2).blk t).view.set
      ↔ ∀ a : Fin 2, win4_2.index t a * S10000x64.size a ≤ (i a).val ∧ (i a).val < win4_2.index t a * S10000x64.size a + S10000x64.size a := by
  show i ∈ ((View.whole main_v56).slice (win4_2.rect t)).set ↔ _
  rw [View.set_slice_whole, Rect.mem_set_unit]
  exact Iff.rfl

/-- The 170 blocks of 10000 rows fill the 1700000 rows: row `r` is in block `r / 10000`. -/
theorem blocks_cover (i : S1700000x64.Idx) :
    ∃ t : Fin cfg4.N, (cfg4.win 2).flush t = true ∧ i ∈ ((cfg4.win 2).blk t).view.set := by
  have hi0 : (i 0).val < 1700000 := (i 0).isLt
  have hi1 : (i 1).val < 64 := (i 1).isLt
  have ht : (i 0).val / 10000 < 170 := by omega
  obtain ⟨a00, a01, a10, a11, a20, a21⟩ := block_indices ⟨(i 0).val / 10000, ht⟩
  have a20' : win4_2.index ⟨(i 0).val / 10000, ht⟩ (0 : Fin 2) = (i 0).val / 10000 := a20
  refine ⟨⟨(i 0).val / 10000, ht⟩, flush4_2 _, ?_⟩
  rw [mem_block]
  intro a
  match a with
  | ⟨0, _⟩ => show win4_2.index ⟨(i 0).val / 10000, ht⟩ (0 : Fin 2) * 10000 ≤ (i 0).val ∧ (i 0).val < win4_2.index ⟨(i 0).val / 10000, ht⟩ (0 : Fin 2) * 10000 + 10000; omega
  | ⟨1, _⟩ => show win4_2.index ⟨(i 0).val / 10000, ht⟩ (1 : Fin 2) * 64 ≤ (i 1).val ∧ (i 1).val < win4_2.index ⟨(i 0).val / 10000, ht⟩ (1 : Fin 2) * 64 + 64; omega

/-! ## The array after the region -/

/-- After the second scaling region the output array holds the rows of the first array it read, each times its factor in the second. -/
theorem arr (c : Dev nD) (h : Vec Ideal S1700000x64 .f32) (n : Vec Ideal S1700000x1 .f32)
    (hh : V c main_v54 = h) (hn : V c main_v55 = n) :
    (dat4 (F := Ideal) V c).arrAt 2 cfg4.N = scaled h n := by
  subst hh; subst hn
  exact (dat4 V c).arrAt_eq_of_cover 2 (scaled (V c main_v54) (V c main_v55)) (fun t _ => written_block V c t) blocks_cover

end Cert.KernelIdeal.Scale2

end
-- ==== Proof.Bias.lean ====
/-
  The last epilogue region: to every entry of the summed messages [100000, 64] the bias of its column is added
  (a one-row array [1, 64], the same block at every point, spread along the rows); 2000 rows at a time, the 50
  blocks tile the array.
-/
import proofs.«127978_j65386582114681_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Bias

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Column `i 1` of the one-row array of biases. -/
abbrev colOf (i : S100000x64.Idx) : S1x64.Idx := fun a => match a with
  | ⟨0, _⟩ => ⟨0, Nat.one_pos⟩
  | ⟨1, _⟩ => ⟨(i 1).val, (i 1).isLt⟩

/-- The bias of its column added to every entry. -/
def biased (a : Vec Ideal S100000x64 .f32) (b : Vec Ideal S1x64 .f32) : Vec Ideal S100000x64 .f32 :=
  fun i => a i + b (colOf i)

/-- The offsets of an access to a whole buffer are zero on both axes. -/
theorem offsets_zero : (![0, 0] : Fin 2 → Nat) = fun _ => 0 := funext fun a => by fin_cases a <;> rfl

/-- Column `j 1` of the one-row block of biases. -/
abbrev blockColOf (j : S2000x64.Idx) : S1x64.Idx := fun a => match a with
  | ⟨0, _⟩ => ⟨0, Nat.one_pos⟩
  | ⟨1, _⟩ => ⟨(j 1).val, (j 1).isLt⟩

/-- The one-row block repeated along the 2000 rows reads, at (r, c), its entry (0, c). -/
theorem rows_of_one_row (x : Vec Ideal S1x64 .f32) (j : S2000x64.Idx) :
    broadcastTo S2000x64 x broadcasts_S1x64_S2000x64 j = x (blockColOf j) :=
  broadcastTo_apply x broadcasts_S1x64_S2000x64 j (blockColOf j) (fun a => by
    match a with
    | ⟨0, _⟩ => rfl
    | ⟨1, _⟩ => rfl)

/-- The body's result at entry (r, c) of a block: the entry plus the bias of column c. -/
theorem body_entry (x0 : Vec Ideal S2000x64 .f32) (x1 : Vec Ideal S1x64 .f32) (j : S2000x64.Idx) :
    k5_pay1 x0 x1 j = x0 j + x1 (blockColOf j) := by
  unfold k5_pay1
  simp only [shapeCast_self]
  rw [ValueIdx.addf_apply, rows_of_one_row]

/-- The block indices of the three windows at point `t`: the first input and the output are at block row `t`,
    block column 0; the row of biases is its one block at every point. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- An entry of a block's result is the whole-array function at the array entry under it, once the two
    block entries it reads are the arrays' entries there. -/
theorem entry_of_block (a : Vec Ideal S100000x64 .f32) (b : Vec Ideal S1x64 .f32)
    (x0 : Vec Ideal S2000x64 .f32) (x1 : Vec Ideal S1x64 .f32) (j : S2000x64.Idx) (i : S100000x64.Idx)
    (h0 : x0 j = a i) (h1 : x1 (blockColOf j) = b (colOf i)) :
    k5_pay1 x0 x1 j = biased a b i := by
  rw [body_entry, h0, h1]
  rfl

/-- What point `t` writes back is block `t` of `biased` of the two arrays the region reads: entry (r, c) of the
    block is entry (2000 t + r, c) of the array, and depends on that entry of the first array and on entry (0, c)
    of the row of biases. -/
theorem written_back_block (c : Dev nD) (t : Fin cfg5.N) :
    (dat5 (F := Ideal) V c).flushed 2 t
      = ((cfg5.win 2).blk t).view.read (Elt Ideal) (biased (V c main_v59) (V c main_v60)) := by
  show (cfg5.win 2).cut (grid5.coords t) ((dat5 V c).after 2 t) = _
  rw [after5_2]
  unfold out5_2
  rw [View.canon_unit_zero offsets_zero]
  simp only [View.ld_unit_zero (S := S2000x64) offsets_zero, View.ld_unit_zero (S := S1x64) offsets_zero]
  obtain ⟨e0, e1, e2, e3, e4, e5⟩ := block_indices t
  funext j
  show k5_pay1 (iblk5 V c 0 t) (iblk5 V c 1 t) j
      = biased (V c main_v59) (V c main_v60) (((cfg5.win 2).blk t).view.emb j)
  refine entry_of_block (V c main_v59) (V c main_v60) (iblk5 V c 0 t) (iblk5 V c 1 t) j _ ?_ ?_
  · -- the first input's block sits over the same rows and columns as the output's
    show V c main_v59 (((cfg5.win 0).blk t).view.emb j) = V c main_v59 (((cfg5.win 2).blk t).view.emb j)
    refine congrArg _ (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 64 + 1 * (j 1).val = win5_2.index t (1 : Fin 2) * 64 + 1 * (j 1).val; omega
  · -- the one block of biases is the whole row: its column c is the array's column c
    show V c main_v60 (((cfg5.win 1).blk t).view.emb (blockColOf j)) = V c main_v60 (colOf (((cfg5.win 2).blk t).view.emb j))
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega

/-- An entry of the output array is in point `t`'s block iff each coordinate is in the block's range on its axis. -/
theorem mem_block_iff (t : Fin cfg5.N) (i : S100000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v61).slice (win5_2.rect t)).set ↔ _
  rw [View.set_slice_whole, Rect.mem_set_unit]
  exact Iff.rfl

/-- The 50 blocks of 2000 rows tile the 100000 rows: row r is in the block of point r / 2000, and every point
    writes its block back. -/
theorem rows_tiled (i : S100000x64.Idx) :
    ∃ t : Fin cfg5.N, (cfg5.win 2).flush t = true ∧ i ∈ ((cfg5.win 2).blk t).view.set := by
  have hr : (i 0).val < 100000 := (i 0).isLt
  have hc : (i 1).val < 64 := (i 1).isLt
  have hN : cfg5.N = 50 := N_5
  have ht : (i 0).val / 2000 < cfg5.N := by omega
  obtain ⟨-, -, -, -, e4, e5⟩ := block_indices ⟨(i 0).val / 2000, ht⟩
  refine ⟨⟨(i 0).val / 2000, ht⟩, flush5_2 _, ?_⟩
  rw [mem_block_iff]
  intro a
  match a with
  | ⟨0, _⟩ =>
    show win5_2.index ⟨(i 0).val / 2000, ht⟩ (0 : Fin 2) * 2000 ≤ (i 0).val
      ∧ (i 0).val < win5_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win5_2.index ⟨(i 0).val / 2000, ht⟩ (1 : Fin 2) * 64 ≤ (i 1).val
      ∧ (i 1).val < win5_2.index ⟨(i 0).val / 2000, ht⟩ (1 : Fin 2) * 64 + 64
    rw [e5]
    omega

/-- After the last epilogue's region the output array holds a + b of the two arrays it read. -/
theorem arr (c : Dev nD) (a : Vec Ideal S100000x64 .f32) (b : Vec Ideal S1x64 .f32)
    (ha : V c main_v59 = a) (hb : V c main_v60 = b) :
    (dat5 (F := Ideal) V c).arrAt 2 cfg5.N = biased a b := by
  subst ha; subst hb
  exact (dat5 (F := Ideal) V c).arrAt_eq_of_cover 2 (biased (V c main_v59) (V c main_v60))
    (fun t _ => written_back_block V c t) rows_tiled

end Cert.KernelIdeal.Bias

end
-- ==== Proof.LibUnitAxis.lean ====
/-
  A reshape that only adds a unit axis is the broadcast that places the old axis: for a vector `y` of length `n`,
  the column [n, 1] made by `shapeCast` is `broadcastInDim` along dimension 0, and the row [1, n] is
  `broadcastInDim` along dimension 1. Both sides read `y` at the one coordinate that is not the unit one.
-/
import Idealize.ShloMosaic.Lib.Pipeline.Value
import Idealize.ShloMosaic.Lib.ValueIdx

namespace Idealize.ShloMosaic.UnitAxis

variable {α : Type}

/-- The column [n, 1] of a length-`n` vector, made by a reshape, is its broadcast along dimension 0. -/
theorem shapeCast_col_eq_broadcastInDim {n : Nat} (hn : n ≠ 1) (y : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ y h = broadcastInDim ⟨2, ![n, 1]⟩ ![0] hb y := by
  funext j
  have h1 : (j 1).val = 0 := by have := (j 1).isLt; simp at this; omega
  let k : (⟨1, ![n]⟩ : Shape).Idx := fun a => match a with | ⟨0, _⟩ => ⟨(j 0).val, (j 0).isLt⟩
  rw [shapeCast_apply y h j k (by
        rw [Shape.rowMajor_val_two, Shape.rowMajor_val_one]
        show (j 0).val = (j 0).val * 1 + (j 1).val
        omega),
      broadcastInDim_apply ![0] hb y j k (fun a => match a with
        | ⟨0, _⟩ => by show (j 0).val = if n = 1 then 0 else (j 0).val; rw [if_neg hn])]

/-- The row [1, n] of a length-`n` vector, made by a reshape, is its broadcast along dimension 1. -/
theorem shapeCast_row_eq_broadcastInDim {n : Nat} (hn : n ≠ 1) (y : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ y h = broadcastInDim ⟨2, ![1, n]⟩ ![1] hb y := by
  funext j
  have h0 : (j 0).val = 0 := by have := (j 0).isLt; simp at this; omega
  let k : (⟨1, ![n]⟩ : Shape).Idx := fun a => match a with | ⟨0, _⟩ => ⟨(j 1).val, (j 1).isLt⟩
  rw [shapeCast_apply y h j k (by
        rw [Shape.rowMajor_val_two, Shape.rowMajor_val_one]
        show (j 1).val = (j 0).val * n + (j 1).val
        rw [h0]; omega),
      broadcastInDim_apply ![1] hb y j k (fun a => match a with
        | ⟨0, _⟩ => by show (j 1).val = if n = 1 then 0 else (j 1).val; rw [if_neg hn])]

end Idealize.ShloMosaic.UnitAxis
-- ==== Proof.Bridge.lean ====
/-
  The six regions of the idealized kernel against the stages of the reference: each region's whole-array function
  (a matrix product as a sum over the contracted axis; rows times a per-row factor; a per-column bias added, with or
  without the maximum with zero) is the reference's stage when its inputs are the reference's earlier stages.
  Also: multiplying by the all-ones vector changes nothing over the extended reals, so the kernel's edge weight
  dis[row] · dis[col] is the reference's dis[row] · 1 · dis[col]; and a reshape that adds a unit axis is the
  reference's broadcast that places the old axis.
-/
import proofs.«127978_j65386582114681_1_alg».proof.Proof.Project1
import proofs.«127978_j65386582114681_1_alg».proof.Proof.Scale1
import proofs.«127978_j65386582114681_1_alg».proof.Proof.BiasRelu
import proofs.«127978_j65386582114681_1_alg».proof.Proof.Project2
import proofs.«127978_j65386582114681_1_alg».proof.Proof.Scale2
import proofs.«127978_j65386582114681_1_alg».proof.Proof.Bias
import proofs.«127978_j65386582114681_1_alg».proof.Proof.RefRead
import proofs.«127978_j65386582114681_1_alg».proof.Proof.LibUnitAxis
import Idealize.ShloMosaic.PureOps.IdealRules

set_option maxRecDepth 16384

noncomputable section

namespace Cert.Bridge

open Cert.ReferenceIdeal Cert.ReferenceIdeal.Gen Cert.ReferenceIdeal.ReadP
open Idealize.ShloMosaic Idealize.ShloMosaic.TcCoe Idealize.SL.Sem

/-! ## The edge weights -/

/-- Over the extended reals a product with one is the other factor, whatever it is: the reference's
    dis[row] · 1 is dis[row]. -/
theorem times_ones (x1 : (⟨S2x1600000, .i32⟩ : BufTy).Contents (Elt Ideal)) : val_main_v24 (F := Ideal) x1 = val_main_v23 (F := Ideal) x1 := by
  funext i
  rw [val_main_v24_apply, val_main_v7_apply, val_main_cst_apply]
  show val_main_v23 (F := Ideal) x1 i * Ideal.ofBits .f32 (IdealRules.sign_bit.onePat .f32) = _
  rw [IdealRules.sign_bit.ideal_onePat, mul_one]

/-- The reference's edge weight dis[row] · 1 · dis[col] is dis[row] · dis[col]. -/
theorem weights (x1 : (⟨S2x1600000, .i32⟩ : BufTy).Contents (Elt Ideal)) :
    val_main_v32 (F := Ideal) x1 = mulf (F := Ideal) (s := S1700000) (φ := .f32) (val_main_v23 (F := Ideal) x1) (val_main_v31 (F := Ideal) x1) := by
  unfold val_main_v32
  rw [times_ones]

/-! ## The regions -/

/-- The first projection: the sum over the contracted axis is the reference's `dot_general` read at an index. -/
theorem project1 (x0 : (⟨S100000x128, .f32⟩ : BufTy).Contents (Elt Ideal)) (x2 : (⟨S128x128, .f32⟩ : BufTy).Contents (Elt Ideal)) :
    Cert.KernelIdeal.Project1.prod x0 x2 = val_main_v33 (F := Ideal) x0 x2 := by
  funext i
  rw [val_main_v33_apply]
  rfl

/-- The first scaling: each gathered row times its edge weight, the weight read through the reference's two
    broadcasts ([E] → [E, 1] → [E, 128]). -/
theorem scale1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) :
    Cert.KernelIdeal.Scale1.scaled (val_main_v40 (F := Ideal) x0 x1 x2) (val_main_v41 (F := Ideal) x1)
      = val_main_v43 (F := Ideal) x0 x1 x2 := by
  funext i
  rw [val_main_v43_apply, val_main_v42_apply]
  rfl

/-- The first epilogue: the bias of the column added, then the maximum with zero — the reference's two broadcasts
    of the bias ([128] → [1, 128] → [N, 128]), its sum and its relu. -/
theorem biasRelu (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    Cert.KernelIdeal.BiasRelu.biased (val_main_v46 (F := Ideal) x0 x1 x2) (val_main_v47 (F := Ideal) x3)
      = val_main_v50 (F := Ideal) x0 x1 x2 x3 := by
  funext i
  rw [val_main_v50_apply, val_main_v49_apply, val_main_v48_apply, val_main_call1_v0_apply, val_main_call1_cst_apply]
  rfl

/-- The second projection, applied to the first layer's output. -/
theorem project2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    Cert.KernelIdeal.Project2.prod (val_main_v50 (F := Ideal) x0 x1 x2 x3) x4 = val_main_v51 (F := Ideal) x0 x1 x2 x3 x4 := by
  funext i
  rw [val_main_v51_apply]
  rfl

/-- The second scaling. -/
theorem scale2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    Cert.KernelIdeal.Scale2.scaled (val_main_v58 (F := Ideal) x0 x1 x2 x3 x4) (val_main_v59 (F := Ideal) x1)
      = val_main_v61 (F := Ideal) x0 x1 x2 x3 x4 := by
  funext i
  rw [val_main_v61_apply, val_main_v60_apply]
  rfl

/-- The last epilogue: the bias of the column added. -/
theorem bias (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    Cert.KernelIdeal.Bias.biased (val_main_v64 (F := Ideal) x0 x1 x2 x3 x4) (val_main_v65 (F := Ideal) x5)
      = val_main_v67 (F := Ideal) x0 x1 x2 x3 x4 x5 := by
  funext i
  rw [val_main_v67_apply, val_main_v66_apply]
  rfl

/-! ## Reshapes that add a unit axis -/

/-- The edge weights as a column [E, 1]: the reshape the kernel's program does is the reference's broadcast. -/
theorem weights_column (y : (⟨S1700000, .f32⟩ : BufTy).Contents (Elt Ideal)) (h : S1700000.ShapeCasts S1700000x1) :
    shapeCast S1700000x1 y h = broadcastInDim S1700000x1 ![0] bcast_S1700000_S1700000x1_0 y :=
  UnitAxis.shapeCast_col_eq_broadcastInDim (by decide) y h bcast_S1700000_S1700000x1_0

/-- The first bias as a row [1, 128]. -/
theorem bias1_row (y : (⟨S128, .f32⟩ : BufTy).Contents (Elt Ideal)) (h : S128.ShapeCasts S1x128) :
    shapeCast S1x128 y h = broadcastInDim S1x128 ![1] bcast_S128_S1x128_1 y :=
  UnitAxis.shapeCast_row_eq_broadcastInDim (by decide) y h bcast_S128_S1x128_1

/-- The second bias as a row [1, 64]. -/
theorem bias2_row (y : (⟨S64, .f32⟩ : BufTy).Contents (Elt Ideal)) (h : S64.ShapeCasts S1x64) :
    shapeCast S1x64 y h = broadcastInDim S1x64 ![1] bcast_S64_S1x64_1 y :=
  UnitAxis.shapeCast_row_eq_broadcastInDim (by decide) y h bcast_S64_S1x64_1

end Cert.Bridge

end
-- ==== Proof.Boundary.lean ====
/-
  The contents of the idealized kernel program's buffers at the boundaries between its host stretches and its six
  regions, each as the reference's stage of the same name applied to the launched argument arrays. The chain:
  the two node-index lists (edge endpoints with the self loops appended) and the degree-normalisation vector come
  from the first host stretches exactly as in the reference; the edge weight dis[row] · dis[col] is the
  reference's dis[row] · 1 · dis[col]; every region's output array is the region's whole-array function of what it
  read, which is the reference's stage; a gather or a scatter-add between two regions is the same host operation
  on equal operands.
-/
import proofs.«127978_j65386582114681_1_alg».proof.Proof.Carry
import proofs.«127978_j65386582114681_1_alg».proof.Proof.Bridge

set_option maxRecDepth 16384

noncomputable section

namespace Cert.KernelIdeal.Boundary

open Cert.KernelIdeal Cert.KernelIdeal.Gen
open Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first host stretches: index lists, degrees, edge weights -/

/-- The launch contents of a buffer are the memory's. -/
theorem W0_eq (c : Dev nD) (b : Ref sig .tc) : W0 m ρ c (Proc.devRef .tc b) = m ((c : Thread nD τ).loc b) := rfl

/-- Source nodes: the first row of the edge list with the self loops appended. -/
theorem W1_v5 (c : Dev nD) : W1 m ρ c (Proc.devRef .tc main_v5) = val_main_v5 (F := Ideal) (m ((c : Thread nD τ).loc main_arg1)) := by
  show StableHlo.after hostOps0 (W0 m ρ c) (Proc.devRef .tc main_v5) = _
  after_results
  rfl

/-- Target nodes: the second row of the edge list with the self loops appended. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results
  rfl

set_option maxHeartbeats 4000000 in
/-- Which nodes have a positive in-degree. -/
theorem W1_v12 (c : Dev nD) : W1 m ρ c (Proc.devRef .tc main_v12) = val_main_v12 (F := Ideal) (m ((c : Thread nD τ).loc main_arg1)) := by
  show StableHlo.after hostOps0 (W0 m ρ c) (Proc.devRef .tc main_v12) = _
  after_results
  rfl

set_option maxHeartbeats 4000000 in
/-- The reciprocal square root of the in-degree clamped below by one. -/
theorem W1_v15 (c : Dev nD) : W1 m ρ c (Proc.devRef .tc main_v15) = val_main_v15 (F := Ideal) (m ((c : Thread nD τ).loc main_arg1)) := by
  show StableHlo.after hostOps0 (W0 m ρ c) (Proc.devRef .tc main_v15) = _
  after_results
  rfl

/-- The zero that fills the nodes without an incoming edge. -/
theorem W1_cst_3 (c : Dev nD) : W1 m ρ c (Proc.devRef .tc main_cst_3) = val_main_cst_3 (F := Ideal) := by
  show StableHlo.after hostOps0 (W0 m ρ c) (Proc.devRef .tc main_cst_3) = _
  after_results
  rfl

/-- The degree-normalisation vector dis: the reciprocal square root where the in-degree is positive, zero elsewhere. -/
theorem W2_v16 (c : Dev nD) : W2 m ρ c (Proc.devRef .tc main_v16) = val_main_v16 (F := Ideal) (m ((c : Thread nD τ).loc main_arg1)) := by
  have h12 := W1_v12 m ρ c
  have h15 := W1_v15 m ρ c
  have h3 := W1_cst_3 m ρ c
  show StableHlo.after hostOps0_1 (W1 m ρ c) (Proc.devRef .tc main_v16) = _
  generalize W1 m ρ c = X at h12 h15 h3 ⊢
  after_results
  simp only [TRef.ofBuf, TRef.toBuf, cast_eq]
  rw [h12, h15, h3]
  rfl

/-- The index lists are as made by the first stretch when the edge weights are computed. -/
theorem W2_v5 (c : Dev nD) : W2 m ρ c (Proc.devRef .tc main_v5) = val_main_v5 (F := Ideal) (m ((c : Thread nD τ).loc main_arg1)) :=
  (show W2 m ρ c (Proc.devRef .tc main_v5) = W1 m ρ c (Proc.devRef .tc main_v5) by unwritten hostOps0_1).trans (W1_v5 m ρ c)
theorem W2_v6 (c : Dev nD) : W2 m ρ c (Proc.devRef .tc main_v6) = val_main_v6 (F := Ideal) (m ((c : Thread nD τ).loc main_arg1)) :=
  (show W2 m ρ c (Proc.devRef .tc main_v6) = W1 m ρ c (Proc.devRef .tc main_v6) by unwritten hostOps0_1).trans (W1_v6 m ρ c)

set_option maxHeartbeats 4000000 in
/-- The edge weights as the kernel computes them: dis gathered at the source times dis gathered at the target. -/
theorem W3_v31_raw (c : Dev nD) :
    W3 m ρ c (Proc.devRef .tc main_v31) = mulf (F := Ideal) (s := Cert.ReferenceIdeal.S1700000) (φ := .f32) (val_main_v23 (F := Ideal) (m ((c : Thread nD τ).loc main_arg1))) (val_main_v31 (F := Ideal) (m ((c : Thread nD τ).loc main_arg1))) := by
  have h5 := W2_v5 m ρ c
  have h6 := W2_v6 m ρ c
  have h16 := W2_v16 m ρ c
  show StableHlo.after hostOps0_2 (W2 m ρ c) (Proc.devRef .tc main_v31) = _
  generalize W2 m ρ c = X at h5 h6 h16 ⊢
  after_results_simp
  rw [h5, h6, h16]
  rfl

/-- The edge weights are the reference's: its extra factor, the all-ones vector, changes nothing. -/
theorem W3_v31 (c : Dev nD) : W3 m ρ c (Proc.devRef .tc main_v31) = val_main_v32 (F := Ideal) (m ((c : Thread nD τ).loc main_arg1)) :=
  (W3_v31_raw m ρ c).trans (Cert.Bridge.weights _).symm

/-! ## The first layer -/

/-- The first projection's two inputs are the launched node features and first weight matrix. -/
theorem W3_arg0 (c : Dev nD) : W3 m ρ c (Proc.devRef .tc main_arg0) = m ((c : Thread nD τ).loc main_arg0) := W3_arg0_of_W0 m ρ c
theorem W3_arg2 (c : Dev nD) : W3 m ρ c (Proc.devRef .tc main_arg2) = m ((c : Thread nD τ).loc main_arg2) := W3_arg2_of_W0 m ρ c

/-- After the first projection: the product of the node features with the first weight matrix. -/
theorem W4_v32 (c : Dev nD) : W4 m ρ c (Proc.devRef .tc main_v32) = val_main_v33 (F := Ideal) (m ((c : Thread nD τ).loc main_arg0)) (m ((c : Thread nD τ).loc main_arg2)) :=
  (W4_arr m ρ c 2).trans ((Project1.arr (V3 m ρ) c _ _ (W3_arg0 m ρ c) (W3_arg2 m ρ c)).trans (Cert.Bridge.project1 _ _))

theorem W4_v5 (c : Dev nD) : W4 m ρ c (Proc.devRef .tc main_v5) = val_main_v5 (F := Ideal) (m ((c : Thread nD τ).loc main_arg1)) :=
  (W4_v5_of_W1 m ρ c).trans (W1_v5 m ρ c)
theorem W4_v31 (c : Dev nD) : W4 m ρ c (Proc.devRef .tc main_v31) = val_main_v32 (F := Ideal) (m ((c : Thread nD τ).loc main_arg1)) :=
  (W4_v31_of_W3 m ρ c).trans (W3_v31 m ρ c)

/-- The projected rows gathered at the source node of every edge. -/
theorem W5_v39 (c : Dev nD) : W5 m ρ c (Proc.devRef .tc main_v39) = val_main_v40 (F := Ideal) (m ((c : Thread nD τ).loc main_arg0)) (m ((c : Thread nD τ).loc main_arg1)) (m ((c : Thread nD τ).loc main_arg2)) := by
  have h5 := W4_v5 m ρ c
  have h32 := W4_v32 m ρ c
  show StableHlo.after hostOps1 (W4 m ρ c) (Proc.devRef .tc main_v39) = _
  generalize W4 m ρ c = X at h5 h32 ⊢
  after_results
  rw [h5, h32]
  rfl

/-- The edge weights as a column. -/
theorem W5_v40 (c : Dev nD) : W5 m ρ c (Proc.devRef .tc main_v40) = val_main_v41 (F := Ideal) (m ((c : Thread nD τ).loc main_arg1)) := by
  have h31 := W4_v31 m ρ c
  show StableHlo.after hostOps1 (W4 m ρ c) (Proc.devRef .tc main_v40) = _
  generalize W4 m ρ c = X at h31 ⊢
  after_results
  rw [h31]
  exact Cert.Bridge.weights_column _ _

/-- After the first scaling: every gathered row times its edge weight. -/
theorem W6_v41 (c : Dev nD) : W6 m ρ c (Proc.devRef .tc main_v41) = val_main_v43 (F := Ideal) (m ((c : Thread nD τ).loc main_arg0)) (m ((c : Thread nD τ).loc main_arg1)) (m ((c : Thread nD τ).loc main_arg2)) :=
  (W6_arr m ρ c 2).trans ((Scale1.arr (V5 m ρ) c _ _ (W5_v39 m ρ c) (W5_v40 m ρ c)).trans (Cert.Bridge.scale1 _ _ _))

theorem W6_v6 (c : Dev nD) : W6 m ρ c (Proc.devRef .tc main_v6) = val_main_v6 (F := Ideal) (m ((c : Thread nD τ).loc main_arg1)) :=
  (W6_v6_of_W1 m ρ c).trans (W1_v6 m ρ c)
theorem W6_arg3 (c : Dev nD) : W6 m ρ c (Proc.devRef .tc main_arg3) = m ((c : Thread nD τ).loc main_arg3) := W6_arg3_of_W0 m ρ c

/-- The scaled messages summed at the target node of every edge. -/
theorem W7_v44 (c : Dev nD) : W7 m ρ c (Proc.devRef .tc main_v44) = val_main_v46 (F := Ideal) (m ((c : Thread nD τ).loc main_arg0)) (m ((c : Thread nD τ).loc main_arg1)) (m ((c : Thread nD τ).loc main_arg2)) := by
  have h6 := W6_v6 m ρ c
  have h41 := W6_v41 m ρ c
  show StableHlo.after hostOps2 (W6 m ρ c) (Proc.devRef .tc main_v44) = _
  generalize W6 m ρ c = X at h6 h41 ⊢
  after_results
  rw [h6, h41]
  rfl

/-- The first bias as a row. -/
theorem W7_v45 (c : Dev nD) : W7 m ρ c (Proc.devRef .tc main_v45) = val_main_v47 (F := Ideal) (m ((c : Thread nD τ).loc main_arg3)) := by
  have h3 := W6_arg3 m ρ c
  show StableHlo.after hostOps2 (W6 m ρ c) (Proc.devRef .tc main_v45) = _
  generalize W6 m ρ c = X at h3 ⊢
  after_results
  rw [h3]
  exact Cert.Bridge.bias1_row _ _

/-- After the first epilogue: the first layer's output, max(sum + bias, 0). -/
theorem W8_v46 (c : Dev nD) : W8 m ρ c (Proc.devRef .tc main_v46) = val_main_v50 (F := Ideal) (m ((c : Thread nD τ).loc main_arg0)) (m ((c : Thread nD τ).loc main_arg1)) (m ((c : Thread nD τ).loc main_arg2)) (m ((c : Thread nD τ).loc main_arg3)) :=
  (W8_arr m ρ c 2).trans ((BiasRelu.arr (V7 m ρ) c _ _ (W7_v44 m ρ c) (W7_v45 m ρ c)).trans (Cert.Bridge.biasRelu _ _ _ _))

/-! ## The second layer -/

theorem W8_arg4 (c : Dev nD) : W8 m ρ c (Proc.devRef .tc main_arg4) = m ((c : Thread nD τ).loc main_arg4) := W8_arg4_of_W0 m ρ c

/-- After the second projection. -/
theorem W9_v47 (c : Dev nD) : W9 m ρ c (Proc.devRef .tc main_v47) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W9_arr m ρ c 2).trans ((Project2.arr (V8 m ρ) c _ _ (W8_v46 m ρ c) (W8_arg4 m ρ c)).trans (Cert.Bridge.project2 _ _ _ _ _))

theorem W9_v5 (c : Dev nD) : W9 m ρ c (Proc.devRef .tc main_v5) = val_main_v5 (F := Ideal) (m ((c : Thread nD τ).loc main_arg1)) :=
  (W9_v5_of_W4 m ρ c).trans (W4_v5 m ρ c)
theorem W9_v31 (c : Dev nD) : W9 m ρ c (Proc.devRef .tc main_v31) = val_main_v32 (F := Ideal) (m ((c : Thread nD τ).loc main_arg1)) :=
  (W9_v31_of_W4 m ρ c).trans (W4_v31 m ρ c)

/-- The projected rows gathered at the source node of every edge. -/
theorem W10_v54 (c : Dev nD) : W10 m ρ c (Proc.devRef .tc main_v54) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h5 := W9_v5 m ρ c
  have h47 := W9_v47 m ρ c
  show StableHlo.after hostOps4 (W9 m ρ c) (Proc.devRef .tc main_v54) = _
  generalize W9 m ρ c = X at h5 h47 ⊢
  after_results
  rw [h5, h47]
  rfl

/-- The edge weights as a column, again. -/
theorem W10_v55 (c : Dev nD) : W10 m ρ c (Proc.devRef .tc main_v55) = val_main_v59 (F := Ideal) (m ((c : Thread nD τ).loc main_arg1)) := by
  have h31 := W9_v31 m ρ c
  show StableHlo.after hostOps4 (W9 m ρ c) (Proc.devRef .tc main_v55) = _
  generalize W9 m ρ c = X at h31 ⊢
  after_results
  rw [h31]
  exact Cert.Bridge.weights_column _ _

/-- After the second scaling. -/
theorem W11_v56 (c : Dev nD) : W11 m ρ c (Proc.devRef .tc main_v56) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W11_arr m ρ c 2).trans ((Scale2.arr (V10 m ρ) c _ _ (W10_v54 m ρ c) (W10_v55 m ρ c)).trans (Cert.Bridge.scale2 _ _ _ _ _))

theorem W11_v6 (c : Dev nD) : W11 m ρ c (Proc.devRef .tc main_v6) = val_main_v6 (F := Ideal) (m ((c : Thread nD τ).loc main_arg1)) :=
  (W11_v6_of_W6 m ρ c).trans (W6_v6 m ρ c)
theorem W11_arg5 (c : Dev nD) : W11 m ρ c (Proc.devRef .tc main_arg5) = m ((c : Thread nD τ).loc main_arg5) := W11_arg5_of_W0 m ρ c

/-- The scaled messages summed at the target node of every edge. -/
theorem W12_v59 (c : Dev nD) : W12 m ρ c (Proc.devRef .tc main_v59) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h6 := W11_v6 m ρ c
  have h56 := W11_v56 m ρ c
  show StableHlo.after hostOps5 (W11 m ρ c) (Proc.devRef .tc main_v59) = _
  generalize W11 m ρ c = X at h6 h56 ⊢
  after_results
  rw [h6, h56]
  rfl

/-- The second bias as a row. -/
theorem W12_v60 (c : Dev nD) : W12 m ρ c (Proc.devRef .tc main_v60) = val_main_v65 (F := Ideal) (m ((c : Thread nD τ).loc main_arg5)) := by
  have h5 := W11_arg5 m ρ c
  show StableHlo.after hostOps5 (W11 m ρ c) (Proc.devRef .tc main_v60) = _
  generalize W11 m ρ c = X at h5 ⊢
  after_results
  rw [h5]
  exact Cert.Bridge.bias2_row _ _

/-- THE RESULT: after the last epilogue the result buffer holds the reference's result stage of the launched
    arguments. -/
theorem W13_v61 (c : Dev nD) : W13 m ρ c (Proc.devRef .tc main_v61) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W13_arr m ρ c 2).trans ((Bias.arr (V12 m ρ) c _ _ (W12_v59 m ρ c) (W12_v60 m ρ c)).trans (Cert.Bridge.bias _ _ _ _ _ _))

end Cert.KernelIdeal.Boundary

end
-- ==== Proof.lean ====
/-
  A two-layer graph convolution: out = Â · relu(Â · (x W1) + b1) W2 + b2, where Â scatters, to the target node of
  every edge (self loops appended), the source node's row times the edge weight dis[row] · dis[col], and dis is the
  reciprocal square root of the in-degree. The kernel program computes the two projections, the two scalings of the
  gathered rows and the two bias epilogues in six tiled regions and leaves the index lists, the degrees, the
  gathers and the scatter-adds to host operations; the reference does everything with host operations.
  Over the extended reals the two agree stage by stage: a region's blocks tile its output array and each block is
  the region's whole-array function restricted to it (a product of matrices is the same sum over the contracted
  axis whatever the row tiling; a change of float format is the identity); the host operations between regions are
  the reference's own, applied to equal operands; the one difference of arrangement, the reference's factor of an
  all-ones vector in the edge weight, is a product with one. No law used needs finiteness.
  The three frames are the generated ones (the reference's is its run with the result dropped); the idealization
  ledger is empty.
-/
import proofs.«127978_j65386582114681_1_alg».proof.Defs
import proofs.«127978_j65386582114681_1_alg».proof.Proof.Gen.Kernel
import proofs.«127978_j65386582114681_1_alg».proof.Proof.Gen.Kernel.Frame
import proofs.«127978_j65386582114681_1_alg».proof.Proof.Gen.KernelIdeal
import proofs.«127978_j65386582114681_1_alg».proof.Proof.Gen.KernelIdeal.Frame
import proofs.«127978_j65386582114681_1_alg».proof.Proof.Gen.ReferenceIdeal
import proofs.«127978_j65386582114681_1_alg».proof.Proof.Gen.Pre_finite_inputs
import proofs.«127978_j65386582114681_1_alg».proof.Proof.KernelRun
import proofs.«127978_j65386582114681_1_alg».proof.Proof.Boundary
import proofs.«127978_j65386582114681_1_alg».proof.Proof.RefRun
import proofs.«127978_j65386582114681_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result buffer at the reference's last stage of the (agreeing) argument arrays. -/
theorem algebraic : Cert.algebraic_KernelIdeal_ReferenceIdeal := by
  intro m ρ m' ρ' _ hagree
  refine ⟨fun c => Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.W13_v61 m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
